-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S64 : Shape := ⟨1, ![64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x16384 .f32) (main_arg1 : FVec F S16384x64 .f32) (main_arg2 : FVec F S64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x16384 : Shape := ⟨2, ![16384, 16384]⟩
abbrev S16384x64 : Shape := ⟨2, ![16384, 64]⟩
abbrev S64 : Shape := ⟨1, ![64]⟩
abbrev S1x64 : Shape := ⟨2, ![1, 64]⟩
abbrev S256x16384 : Shape := ⟨2, ![256, 16384]⟩
abbrev S256x64 : Shape := ⟨2, ![256, 64]⟩

abbrev nBuf : Space → Nat
  | .hbm => 5
  | .vmem => 7
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S256x16384, .f32⟩
  | .local _ .vmem, ⟨1, _⟩ => ⟨S256x16384, .f32⟩
  | .local _ .vmem, ⟨2, _⟩ => ⟨S16384x64, .f32⟩
  | .local _ .vmem, ⟨3, _⟩ => ⟨S1x64, .f32⟩
  | .local _ .vmem, ⟨4, _⟩ => ⟨S256x64, .f32⟩
  | .local _ .vmem, ⟨5, _⟩ => ⟨S256x64, .f32⟩
  | .local _ .vmem, ⟨6, _⟩ => ⟨S16384x64, .bf16⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S16384x64_S16384x64_0_0 : ∀ a, (![0, 0] : Fin 2 → Nat) a + S16384x64.size a ≤ S16384x64.size a
  h_S16384x64 : 0 < S16384x64.numel
  bitsLt_bf16_f32 : FTy.bits .bf16 < FTy.bits .f32
  shapeCasts_S16384x64_S16384x64 : S16384x64.ShapeCasts S16384x64
  packedbf16_S16384x64_S16384x64_0_0 : (Rect.unit (s := S16384x64) ![0, 0] S16384x64.size inb_S16384x64_S16384x64_0_0).PackedRows (EltTy.packing .bf16)
  inb_S256x16384_S256x16384_0_0 : ∀ a, (![0, 0] : Fin 2 → Nat) a + S256x16384.size a ≤ S256x16384.size a
  h_S256x16384 : 0 < S256x16384.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  dot_S256x16384_S16384x64_S256x64_1_0_0_1_n_n_wf : DotDims.WF S256x16384 S16384x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S16384x16384.size a
  hwx0_0 : ∀ i : grid0.Coords, EltTy.bits .f32 = 32 ∨ (Rect.block (s := S16384x16384) S256x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)

variable [Facts₀]

def dot_S256x16384_S16384x64_S256x64_1_0_0_1_n_n : DotDims S256x16384 S16384x64 S256x64 where
  lhsContracting := [1]
  rhsContracting := [0]
  lhsNonContracting := [0]
  rhsNonContracting := [1]
  lhsBatch := []
  rhsBatch := []
  wf := dot_S256x16384_S16384x64_S256x64_1_0_0_1_n_n_wf

abbrev win0_0 : Pipeline.Window sig grid0 :=
  Pipeline.Window.ofSpec (Memref.whole main_arg0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x16384 : Shape := ⟨2, ![16384, 16384]⟩
abbrev S16384x64 : Shape := ⟨2, ![16384, 64]⟩
abbrev S64 : Shape := ⟨1, ![64]⟩
abbrev S2048x16384 : Shape := ⟨2, ![2048, 16384]⟩
abbrev S2048x64 : Shape := ⟨2, ![2048, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S64, .f32⟩
  | .hbm, ⟨3, _⟩ => ⟨S2048x16384, .f32⟩
  | .hbm, ⟨4, _⟩ => ⟨S2048x64, .f32⟩
  | .hbm, ⟨5, _⟩ => ⟨S2048x16384, .f32⟩
  | .hbm, ⟨6, _⟩ => ⟨S2048x64, .f32⟩
  | .hbm, ⟨7, _⟩ => ⟨S2048x16384, .f32⟩
  | .hbm, ⟨8, _⟩ => ⟨S2048x64, .f32⟩
  | .hbm, ⟨9, _⟩ => ⟨S2048x16384, .f32⟩
  | .hbm, ⟨10, _⟩ => ⟨S2048x64, .f32⟩
  | .hbm, ⟨11, _⟩ => ⟨S2048x16384, .f32⟩
  | .hbm, ⟨12, _⟩ => ⟨S2048x64, .f32⟩
  | .hbm, ⟨13, _⟩ => ⟨S2048x16384, .f32⟩
  | .hbm, ⟨14, _⟩ => ⟨S2048x64, .f32⟩
  | .hbm, ⟨15, _⟩ => ⟨S2048x16384, .f32⟩
  | .hbm, ⟨16, _⟩ => ⟨S2048x64, .f32⟩
  | .hbm, ⟨17, _⟩ => ⟨S2048x16384, .f32⟩
  | .hbm, ⟨18, _⟩ => ⟨S2048x64, .f32⟩
  | .hbm, ⟨19, _⟩ => ⟨S16384x64, .f32⟩
  | .hbm, ⟨20, _⟩ => ⟨S1x64, .f32⟩
  | .hbm, ⟨21, _⟩ => ⟨S16384x64, .f32⟩
  | .hbm, ⟨22, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]

class Facts₀ : Prop where
  slices_S16384x16384_S2048x16384_0_0 : S16384x16384.Slices ![0, 0] S2048x16384
  slices_S16384x16384_S2048x16384_2048_0 : S16384x16384.Slices ![2048, 0] S2048x16384
  slices_S16384x16384_S2048x16384_4096_0 : S16384x16384.Slices ![4096, 0] S2048x16384
  slices_S16384x16384_S2048x16384_6144_0 : S16384x16384.Slices ![6144, 0] S2048x16384
  slices_S16384x16384_S2048x16384_8192_0 : S16384x16384.Slices ![8192, 0] S2048x16384
  slices_S16384x16384_S2048x16384_10240_0 : S16384x16384.Slices ![10240, 0] S2048x16384
  slices_S16384x16384_S2048x16384_12288_0 : S16384x16384.Slices ![12288, 0] S2048x16384
  slices_S16384x16384_S2048x16384_14336_0 : S16384x16384.Slices ![14336, 0] S2048x16384
  concatenates_S2048x64_S2048x64_S2048x64_S2048x64_S2048x64_S2048x64_S2048x64_S2048x64_S16384x64_d0 : Shape.Concatenates [S2048x64, S2048x64, S2048x64, S2048x64, S2048x64, S2048x64, S2048x64, S2048x64] S16384x64 0
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S2048x16384_S16384x64_S2048x64_1_0_0_1_n_n_wf : DotDims.WF S2048x16384 S16384x64 S2048x64 [1] [0] [0] [1] [] []

variable [Facts₀]

def dot_S2048x16384_S16384x64_S2048x64_1_0_0_1_n_n : DotDims S2048x16384 S16384x64 S2048x64 where
  lhsContracting := [1]
  rhsContracting := [0]
  lhsNonContracting := [0]
  rhsNonContracting := [1]
  lhsBatch := []
  rhsBatch := []
  wf := dot_S2048x16384_S16384x64_S2048x64_1_0_0_1_n_n_wf

class Facts : Prop extends Facts₀ where

variable [Facts]
-- ==== Proof.KernelPieces.lean ====
/-
  What one run of the kernel body leaves behind, as values.

  The body keeps a bf16 copy of the weight matrix in a scratch buffer: at the grid's first point it narrows the
  whole weight block and stores it; at every point it multiplies the narrowed row block of the adjacency matrix
  by that scratch copy, adds the bias row broadcast down the rows, and stores the product block whole.
  Each store covers its buffer with one rectangle at offset zero, so what a buffer holds afterwards is the
  stored vector itself; a load that follows the scratch store in the same run reads the stored vector back.
-/
import proofs.«165007_g49873160241781_cont_8to1c4_356_22_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

/-- The zero offset of a rank-2 rectangle, as a function. -/
theorem zero_offset : (![0, 0] : Fin 2 → Nat) = fun _ => 0 := funext fun a => by fin_cases a <;> rfl

/-- First point: the scratch ends holding the narrowed weight block. -/
theorem scratch_first (c : Dev nD) (i : grid0.Coords) (a1 : Memref sig .tc .vmem S256x16384 .f32) (h1 : a1.IsWhole) (a2 : Memref sig .tc .vmem S16384x64 .f32) (h2 : a2.IsWhole) (a3 : Memref sig .tc .vmem S1x64 .f32) (h3 : a3.IsWhole) (a4 : Memref sig .tc .vmem S256x64 .f32) (h4 : a4.IsWhole) (a5 : Memref sig .tc .vmem S16384x64 .bf16) (h5 : a5.IsWhole) (hc : cond0_0 i)
    (x0 : Vec F S256x16384 .f32) (x1 : Vec F S16384x64 .f32) (x2 : Vec F S1x64 .f32) :
    sout0_A_0 c i a1 h1 a2 h2 a3 h3 a4 h4 a5 h5 hc x0 x1 x2 = k0_pay1 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero zero_offset]
  simp only [View.readAt_eq_ld, h2.read_unread, View.ld_unit_zero (S := S16384x64) zero_offset]

/-- First point: the output block is the product of the row block with the weight copy just stored, plus the bias. -/
theorem out_first (c : Dev nD) (i : grid0.Coords) (a1 : Memref sig .tc .vmem S256x16384 .f32) (h1 : a1.IsWhole) (a2 : Memref sig .tc .vmem S16384x64 .f32) (h2 : a2.IsWhole) (a3 : Memref sig .tc .vmem S1x64 .f32) (h3 : a3.IsWhole) (a4 : Memref sig .tc .vmem S256x64 .f32) (h4 : a4.IsWhole) (a5 : Memref sig .tc .vmem S16384x64 .bf16) (h5 : a5.IsWhole) (hc : cond0_0 i)
    (x0 : Vec F S256x16384 .f32) (x1 : Vec F S16384x64 .f32) (x2 : Vec F S1x64 .f32) :
    out0_A_3 c i a1 h1 a2 h2 a3 h3 a4 h4 a5 h5 hc x0 x1 x2 = k0_pay2 x0 (k0_pay1 x1) x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero zero_offset]
  simp only [View.readAt_eq_ld, h1.read_unread, h2.read_unread, h3.read_unread,
    View.readCov_unit_zero (S := S16384x64) _ zero_offset,
    View.ld_unit_zero (S := S256x16384) zero_offset, View.ld_unit_zero (S := S16384x64) zero_offset,
    View.ld_unit_zero (S := S1x64) zero_offset]

/-- Later points: the output block is the product of the row block with the weight copy the scratch carries, plus the bias. -/
theorem out_later (c : Dev nD) (i : grid0.Coords) (a1 : Memref sig .tc .vmem S256x16384 .f32) (h1 : a1.IsWhole) (a2 : Memref sig .tc .vmem S16384x64 .f32) (h2 : a2.IsWhole) (a3 : Memref sig .tc .vmem S1x64 .f32) (h3 : a3.IsWhole) (a4 : Memref sig .tc .vmem S256x64 .f32) (h4 : a4.IsWhole) (a5 : Memref sig .tc .vmem S16384x64 .bf16) (h5 : a5.IsWhole) (hc : ¬cond0_0 i)
    (x0 : Vec F S256x16384 .f32) (x1 : Vec F S16384x64 .f32) (x2 : Vec F S1x64 .f32) (xs0 : Vec F S16384x64 .bf16) :
    out0_B_3 c i a1 h1 a2 h2 a3 h3 a4 h4 a5 h5 hc x0 x1 x2 xs0 = k0_pay2 x0 xs0 x2 := by
  unfold out0_B_3
  rw [View.read_writes_eq_canon _ _ _ (cover0_B_3 c i a1 h1 a2 h2 a3 h3 a4 h4 a5 h5 hc x0 x1 x2 xs0)]
  unfold kernelRun0_B
  dsimp only
  sl_unfold_words
  rw [View.canon_unit_zero zero_offset]
  simp only [View.readAt_eq_ld, h1.read_unread, h3.read_unread, h5.read_unread,
    View.ld_unit_zero (S := S256x16384) zero_offset, View.ld_unit_zero (S := S16384x64) zero_offset,
    View.ld_unit_zero (S := S1x64) zero_offset]

end Cert.KernelIdeal.Pieces

end
-- ==== Proof.KernelInv.lean ====
/-
  What the scratch and the output block hold after each grid point.

  The weight matrix is one block that every point sees whole, so the narrowed copy stored at the first point is
  the narrowed weight matrix; no later point writes the scratch, so by induction on the point it holds that
  copy throughout. Hence at every point, first or later, the output block is the product of the point's row
  block of the adjacency matrix with the narrowed weight matrix, plus the bias row.
-/
import proofs.«165007_g49873160241781_cont_8to1c4_356_22_alg».proof.Proof.KernelPieces
import proofs.«165007_g49873160241781_cont_8to1c4_356_22_alg».proof.Proof.Gen.KernelIdeal.Value

noncomputable section

open Idealize.ShloMosaic Idealize.ShloMosaic.TcCoe Idealize.SL.Sem

namespace Cert.KernelIdeal.Inv

open Cert.KernelIdeal Cert.KernelIdeal.Gen

variable {F : FTy → Type} [FloatOps F]
variable (m : (ℓ : Loc nD τ sig) → Buf (Elt F) ℓ)

/-- The row block of the adjacency matrix that point `t` sees. -/
abbrev rowBlock (c : Dev nD) (t : Fin cfg0.N) : Vec F S256x16384 .f32 := iblk m c 0 t
/-- The weight block that point `t` sees. -/
abbrev weightBlock (c : Dev nD) (t : Fin cfg0.N) : Vec F S16384x64 .f32 := iblk m c 1 t
/-- The bias row that point `t` sees. -/
abbrev biasBlock (c : Dev nD) (t : Fin cfg0.N) : Vec F S1x64 .f32 := iblk m c 2 t
/-- The weight matrix as the region finds it. -/
abbrev weightArr (c : Dev nD) : Vec F S16384x64 .f32 := V m c main_arg1
/-- The bias as a one-row matrix, as the region finds it. -/
abbrev biasArr (c : Dev nD) : Vec F S1x64 .f32 := V m c main_call0_v0

/-- The weight window's block index is (0, 0) at every point. -/
theorem weight_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The bias window's block index is (0, 0) at every point. -/
theorem bias_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Every point sees the whole weight matrix. -/
theorem weightBlock_eq (c : Dev nD) (t : Fin cfg0.N) : weightBlock m c t = weightArr m c := by
  funext j
  unfold weightBlock iblk
  rw [View.read_apply]
  show V m c main_arg1 _ = V m c main_arg1 j
  congr 1
  funext a
  apply Fin.ext
  match a with
  | ⟨0, _⟩ => show win0_1.index t 0 * 16384 + 1 * (j 0).val = (j 0).val; rw [(weight_index t).1]; omega
  | ⟨1, _⟩ => show win0_1.index t 1 * 64 + 1 * (j 1).val = (j 1).val; rw [(weight_index t).2]; omega

/-- Every point sees the whole bias row. -/
theorem biasBlock_eq (c : Dev nD) (t : Fin cfg0.N) : biasBlock m c t = biasArr m c := by
  funext j
  unfold biasBlock iblk
  rw [View.read_apply]
  show V m c main_call0_v0 _ = V m c main_call0_v0 j
  congr 1
  funext a
  apply Fin.ext
  match a with
  | ⟨0, _⟩ => show win0_2.index t 0 * 1 + 1 * (j 0).val = (j 0).val; rw [(bias_index t).1]; omega
  | ⟨1, _⟩ => show win0_2.index t 1 * 64 + 1 * (j 1).val = (j 1).val; rw [(bias_index t).2]; omega

/-- After every point the scratch holds the narrowed weight matrix: stored at the first point, kept afterwards. -/
theorem scratch_eq (c : Dev nD) : ∀ (n : ℕ) (h : n < cfg0.N), (outsAt0 m c n h).2 = k0_pay1 (weightArr m c)
  | 0, h => by
    rw [outsAt0_A m c ⟨0, h⟩ rfl]
    dsimp only
    refine (Pieces.scratch_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _)
      ((hcond0_0 ⟨0, h⟩).mpr rfl) (rowBlock m c ⟨0, h⟩) (weightBlock m c ⟨0, h⟩) (biasBlock m c ⟨0, h⟩)).trans ?_
    rw [weightBlock_eq]
  | n + 1, h => by
    have hN : cfg0.N = 64 := N_0
    have hB : ¬(⟨n + 1, h⟩ : Fin cfg0.N).val % 64 = 0 := by dsimp only; omega
    rw [outsAt0_B m c ⟨n + 1, h⟩ hB]
    dsimp only
    unfold sout0_B_0
    exact scratch_eq c n (Nat.lt_of_succ_lt h)

/-- After point `t` the output's staging buffer holds the product of the point's row block with the narrowed weight
    matrix, plus the bias row. -/
theorem out_eq (c : Dev nD) (t : Fin cfg0.N) :
    (outsAt0 m c t.val t.isLt).1 = k0_pay2 (rowBlock m c t) (k0_pay1 (weightArr m c)) (biasArr m c) := by
  by_cases h0 : t.val % 64 = 0
  · rw [outsAt0_A m c t h0]
    dsimp only
    refine (Pieces.out_first c (grid0.coords t) (ms0_0 t) (hs0_0 t) (ms0_1 t) (hs0_1 t) (ms0_2 t) (hs0_2 t)
      (ms0_3 t) (hs0_3 t) scM0_0 (Memref.isWhole_whole _) ((hcond0_0 t).mpr h0)
      (rowBlock m c t) (weightBlock m c t) (biasBlock m c t)).trans ?_
    rw [weightBlock_eq, biasBlock_eq]
  · rw [outsAt0_B m c t h0]
    dsimp only
    refine (Pieces.out_later c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h))
      (rowBlock m c t) (weightBlock m c t) (biasBlock m c t)
      (outsAt0 m c (t.val - 1) (Nat.lt_of_le_of_lt (Nat.sub_le _ _) t.isLt)).2).trans ?_
    rw [scratch_eq, biasBlock_eq]

end Cert.KernelIdeal.Inv

end
-- ==== Proof.Layer.lean ====
/-
  The layer both programs compute, as one function of the three argument arrays: entry (r, j) of the result is
  the inner product of row r of the adjacency matrix with column j of the weight matrix, plus bias entry j,

      result (r, j) = (∑ k, adj (r, k) * W (k, j)) + b j,

  over the extended reals, the contraction index k running over all 16384 columns of the adjacency matrix.
  The sum is a finite sum in a commutative monoid, so it does not depend on how the rows are tiled or in which
  order the terms are taken.
-/
import Idealize.ShloMosaic.PureOps.Ideal
import Idealize.ShloMosaic.Lib.ValueIdx

noncomputable section

open scoped BigOperators

namespace Cert.Layer

open Idealize.ShloMosaic Idealize.ShloMosaic.ValueIdx

/-- The affine layer `adj · W + b`, entry by entry. -/
def affine (adj : FVec Ideal ⟨2, ![16384, 16384]⟩ .f32) (W : FVec Ideal ⟨2, ![16384, 64]⟩ .f32)
    (b : FVec Ideal ⟨1, ![64]⟩ .f32) : FVec Ideal ⟨2, ![16384, 64]⟩ .f32 :=
  fun i => (∑ k : Fin 16384, adj (ix2 (i 0) k) * W (ix2 k (i 1))) + b (ix1 (i 1))

/-- The layer at explicit coordinates. -/
theorem affine_apply (adj : FVec Ideal ⟨2, ![16384, 16384]⟩ .f32) (W : FVec Ideal ⟨2, ![16384, 64]⟩ .f32)
    (b : FVec Ideal ⟨1, ![64]⟩ .f32) (r : Fin 16384) (j : Fin 64) :
    affine adj W b (ix2 r j) = (∑ k : Fin 16384, adj (ix2 r k) * W (ix2 k j)) + b (ix1 j) := rfl

end Cert.Layer

end
-- ==== Proof.KernelLayer.lean ====
/-
  The kernel computes the layer.

  At the exact instance narrowing to bf16 is the identity and the matrix unit's product into a zero accumulator is
  the plain sum over the contraction index, so the block a point stores is, at row p and column q, the inner product
  of row p of the point's row block with column q of the weight matrix, plus bias entry q. Point t's row block is
  rows 256 t … 256 t + 255 of the adjacency matrix, and it writes its block back to the same rows of the result:
  block t of the result is block t of the layer. The 64 blocks tile the result's rows, so the whole result is the layer.
-/
import proofs.«165007_g49873160241781_cont_8to1c4_356_22_alg».proof.Proof.KernelInv
import proofs.«165007_g49873160241781_cont_8to1c4_356_22_alg».proof.Proof.Layer
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Inv

/-! ## The matrix product at an entry -/

theorem lhs_axis0 (i : S256x64.Idx) (κ : dot_S256x16384_S16384x64_S256x64_1_0_0_1_n_n.contr.Idx) :
    (dot_S256x16384_S16384x64_S256x64_1_0_0_1_n_n.lhsIdx i κ 0).val = (i 0).val := by
  unfold DotDims.lhsIdx
  rw [dif_neg (show ¬(0 : Fin S256x16384.rank) ∈ dot_S256x16384_S16384x64_S256x64_1_0_0_1_n_n.lhsBatch by decide), dif_pos (show (0 : Fin S256x16384.rank) ∈ dot_S256x16384_S16384x64_S256x64_1_0_0_1_n_n.lhsNonContracting by decide)]
  rfl
theorem lhs_axis1 (i : S256x64.Idx) (κ : dot_S256x16384_S16384x64_S256x64_1_0_0_1_n_n.contr.Idx) :
    (dot_S256x16384_S16384x64_S256x64_1_0_0_1_n_n.lhsIdx i κ 1).val = (κ ⟨0, by decide⟩).val :=
  dot_S256x16384_S16384x64_S256x64_1_0_0_1_n_n.lhsIdx_val_of_single rfl i κ
theorem rhs_axis0 (i : S256x64.Idx) (κ : dot_S256x16384_S16384x64_S256x64_1_0_0_1_n_n.contr.Idx) :
    (dot_S256x16384_S16384x64_S256x64_1_0_0_1_n_n.rhsIdx i κ 0).val = (κ ⟨0, by decide⟩).val :=
  dot_S256x16384_S16384x64_S256x64_1_0_0_1_n_n.rhsIdx_val_of_single rfl i κ
theorem rhs_axis1 (i : S256x64.Idx) (κ : dot_S256x16384_S16384x64_S256x64_1_0_0_1_n_n.contr.Idx) :
    (dot_S256x16384_S16384x64_S256x64_1_0_0_1_n_n.rhsIdx i κ 1).val = (i 1).val := by
  unfold DotDims.rhsIdx
  rw [dif_neg (show ¬(1 : Fin S16384x64.rank) ∈ dot_S256x16384_S16384x64_S256x64_1_0_0_1_n_n.rhsBatch by decide), dif_pos (show (1 : Fin S16384x64.rank) ∈ dot_S256x16384_S16384x64_S256x64_1_0_0_1_n_n.rhsNonContracting by decide)]
  rfl

/-- The product into a zero accumulator, at (p, q): the inner product of row p of the left operand with column q of
    the right one. -/
theorem product_entry (a : FVec Ideal S256x16384 .bf16) (w : FVec Ideal S16384x64 .bf16) (p : Fin 256) (q : Fin 64) :
    matmul dot_S256x16384_S16384x64_S256x64_1_0_0_1_n_n none a w (constant (F := Ideal) S256x64 .f32 0x00000000#32) (ix2 p q)
      = ∑ k : Fin 16384, a (ix2 p k) * w (ix2 k q) := by
  show FloatOps.matmul dot_S256x16384_S16384x64_S256x64_1_0_0_1_n_n none a w (constant (F := Ideal) S256x64 .f32 0x00000000#32) (ix2 p q) = _
  rw [Ideal.matmul_constant_zero_apply, ← Equiv.sum_comp (contrEquiv1 dot_S256x16384_S16384x64_S256x64_1_0_0_1_n_n 16384 rfl rfl).symm]
  refine Finset.sum_congr rfl fun k _ => ?_
  have hk := contrEquiv1_symm_val dot_S256x16384_S16384x64_S256x64_1_0_0_1_n_n 16384 rfl rfl k
  have el : dot_S256x16384_S16384x64_S256x64_1_0_0_1_n_n.lhsIdx (ix2 p q) ((contrEquiv1 dot_S256x16384_S16384x64_S256x64_1_0_0_1_n_n 16384 rfl rfl).symm k) = ix2 p k := funext fun a => Fin.ext (by
    match a with
    | ⟨0, _⟩ => exact lhs_axis0 _ _
    | ⟨1, _⟩ => exact (lhs_axis1 _ _).trans hk)
  have er : dot_S256x16384_S16384x64_S256x64_1_0_0_1_n_n.rhsIdx (ix2 p q) ((contrEquiv1 dot_S256x16384_S16384x64_S256x64_1_0_0_1_n_n 16384 rfl rfl).symm k) = ix2 k q := funext fun a => Fin.ext (by
    match a with
    | ⟨0, _⟩ => exact (rhs_axis0 _ _).trans hk
    | ⟨1, _⟩ => exact rhs_axis1 _ _)
  rw [el, er]

/-- The bias row broadcast down 256 rows, at (p, q): bias entry (0, q). -/
theorem bias_entry (x2 : FVec Ideal S1x64 .f32) (h : S1x64.Broadcasts S256x64) (p : Fin 256) (q : Fin 64) :
    broadcastTo S256x64 x2 h (ix2 p q) = x2 (ix2 (0 : Fin 1) q) :=
  broadcastTo_apply x2 h (ix2 p q) (ix2 (0 : Fin 1) q) (fun a => by
    match a with
    | ⟨0, _⟩ => show (0 : ℕ) = if (1 : ℕ) = 1 then 0 else _; rw [if_pos rfl]
    | ⟨1, _⟩ => show q.val = if (64 : ℕ) = 1 then 0 else _; rw [if_neg (by decide)]; rfl)

/-- The stored block at (p, q): row p of the row block against column q of the weights, plus bias entry q. -/
theorem payload_entry (x0 : Vec Ideal S256x16384 .f32) (w : Vec Ideal S16384x64 .f32) (x2 : Vec Ideal S1x64 .f32)
    (p : Fin 256) (q : Fin 64) :
    k0_pay2 (F := Ideal) x0 (k0_pay1 (F := Ideal) w) x2 (ix2 p q)
      = (∑ k : Fin 16384, x0 (ix2 p k) * w (ix2 k q)) + x2 (ix2 (0 : Fin 1) q) := by
  unfold k0_pay2 k0_pay1
  dsimp only
  refine (addf_apply _ _ _).trans ?_
  refine congrArg₂ (· + ·) ((product_entry _ _ p q).trans ?_) ?_
  · refine Finset.sum_congr rfl fun k _ => ?_
    rw [shapeCast_self]
    rfl
  · rw [shapeCast_self]
    exact bias_entry x2 _ p q

/-! ## The blocks read off the arrays -/

section Run

variable (m : (ℓ : Loc nD τ sig) → Buf (Elt Ideal) ℓ) (ρ : Dev nD → PrngReg)

/-- The adjacency matrix as the region finds it. -/
abbrev adjArr (c : Dev nD) : Vec Ideal S16384x16384 .f32 := V m c main_arg0

/-- The layer of the arguments as launched: what the result array is to hold. -/
abbrev result (c : Dev nD) : S16384x64.Idx → Ideal .f32 :=
  Cert.Layer.affine (m ((c : Thread nD τ).loc main_arg0)) (m ((c : Thread nD τ).loc main_arg1)) (m ((c : Thread nD τ).loc main_arg2))

/-- The row window's block index at point t is (t, 0). -/
theorem row_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The result window's block index at point t is (t, 0). -/
theorem out_index : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row p of point t's row block is row 256 t + p of the adjacency matrix. -/
theorem rowBlock_apply (c : Dev nD) (t : Fin cfg0.N) (p : Fin 256) (k : Fin 16384) (r : Fin 16384)
    (hr : r.val = 256 * t.val + p.val) : rowBlock m c t (ix2 p k) = adjArr m c (ix2 r k) := by
  unfold rowBlock iblk
  rw [View.read_apply]
  show V m c main_arg0 _ = V m c main_arg0 _
  congr 1
  funext a
  apply Fin.ext
  match a with
  | ⟨0, _⟩ => show win0_0.index t 0 * 256 + 1 * p.val = r.val; rw [(row_index t).1, hr]; omega
  | ⟨1, _⟩ => show win0_0.index t 1 * 16384 + 1 * k.val = k.val; rw [(row_index t).2]; omega

/-- The one-row bias matrix the region finds is the bias vector re-laid as one row. -/
theorem biasArr_eq (c : Dev nD) :
    (biasArr m c : S1x64.Idx → Ideal .f32) = shapeCast S1x64 (m ((c : Thread nD τ).loc main_arg2)) shapeCasts_S64_S1x64 := by
  dsimp only [biasArr, Gen.V, Gen.hostOps0]
  after_results
  rfl

/-- Its entry (0, q) is bias entry q. -/
theorem biasArr_apply (c : Dev nD) (q : Fin 64) :
    biasArr m c (ix2 (0 : Fin 1) q) = m ((c : Thread nD τ).loc main_arg2) (ix1 q) :=
  (congrFun (biasArr_eq m c) (ix2 (0 : Fin 1) q)).trans
    (shapeCast_apply _ shapeCasts_S64_S1x64 (ix2 (0 : Fin 1) q) (ix1 q) (by
      rw [Shape.rowMajor_val_one, Shape.rowMajor_val_two]
      show q.val = 0 * 64 + q.val
      omega))

/-- Entry (p, q) of the block point t stores is entry (256 t + p, q) of the layer. -/
theorem block_entry (c : Dev nD) (t : Fin cfg0.N) (p : Fin 256) (q : Fin 64) (r : Fin 16384)
    (hr : r.val = 256 * t.val + p.val) :
    k0_pay2 (F := Ideal) (rowBlock m c t) (k0_pay1 (F := Ideal) (weightArr m c)) (biasArr m c) (ix2 p q)
      = result m c (ix2 r q) := by
  refine (payload_entry (rowBlock m c t) (weightArr m c) (biasArr m c) p q).trans ?_
  refine (congrArg₂ (· + ·) (Finset.sum_congr rfl fun k _ => ?_) (biasArr_apply m c q)).trans
    (Cert.Layer.affine_apply _ _ _ r q).symm
  rw [rowBlock_apply m c t p k r hr]
  exact congrArg₂ (· * ·) (congrFun (V_main_arg0 m c) (ix2 r k)) (congrFun (V_main_arg1 m c) (ix2 k q))

/-! ## From the blocks to the array -/

/-- What point t writes back is block t of the layer. -/
theorem flushed_eq (c : Dev nD) (t : Fin cfg0.N) :
    (dats m 0 c).flushed 3 t = ((cfg0.win 3).blk t).view.read (Elt Ideal) (result m c) := by
  rw [Cert.KernelIdeal.Value.flushed3, out_eq]
  have ht : t.val < 64 := lt_of_lt_of_eq t.isLt N_0
  funext j
  have hp : (j 0).val < 256 := (j 0).isLt
  show k0_pay2 (F := Ideal) (rowBlock m c t) (k0_pay1 (F := Ideal) (weightArr m c)) (biasArr m c) j
    = result m c (((cfg0.win 3).blk t).view.emb j)
  refine (congrArg (k0_pay2 (F := Ideal) (rowBlock m c t) (k0_pay1 (F := Ideal) (weightArr m c)) (biasArr m c))
    (eq_ix2 (n0 := 256) (n1 := 64) j)).trans ?_
  refine (block_entry m c t (j 0) (j 1) ⟨256 * t.val + (j 0).val, by omega⟩ rfl).trans ?_
  refine congrArg (result m c) (funext fun a => Fin.ext ?_)
  match a with
  | ⟨0, _⟩ => show 256 * t.val + (j 0).val = win0_3.index t 0 * 256 + 1 * (j 0).val; rw [(out_index t).1]; omega
  | ⟨1, _⟩ => show (j 1).val = win0_3.index t 1 * 64 + 1 * (j 1).val; rw [(out_index t).2]; omega

/-- An index of the result lies in point t's block iff each coordinate lies in the block's range on its axis. -/
theorem mem_block (t : Fin cfg0.N) (i : S16384x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v0).slice (win0_3.rect t)).set ↔ _
  rw [View.set_slice_whole, Rect.mem_set_unit]
  exact Iff.rfl

/-- Row r of the result lies in the block of point r div 256, so the blocks cover the result, which therefore
    ends holding the layer. -/
theorem final (c : Dev nD) : (dats m 0 c).arrAt 3 cfg0.N = result m c :=
  (dats m 0 c).arrAt_eq_of_cover 3 (result m c) (fun t _ => flushed_eq m c t) fun i => by
    have hi0 : (i 0).val < 16384 := (i 0).isLt
    have hi1 : (i 1).val < 64 := (i 1).isLt
    have hN : cfg0.N = 64 := N_0
    refine ⟨⟨(i 0).val / 256, by omega⟩, flush0_3 _, ?_⟩
    rw [mem_block]
    intro a
    match a with
    | ⟨0, _⟩ =>
      show win0_3.index ⟨(i 0).val / 256, _⟩ (0 : Fin 2) * 256 ≤ (i 0).val
        ∧ (i 0).val < win0_3.index ⟨(i 0).val / 256, _⟩ (0 : Fin 2) * 256 + 256
      rw [(out_index ⟨(i 0).val / 256, _⟩).1]
      dsimp only
      omega
    | ⟨1, _⟩ =>
      show win0_3.index ⟨(i 0).val / 256, _⟩ (1 : Fin 2) * 64 ≤ (i 1).val
        ∧ (i 1).val < win0_3.index ⟨(i 0).val / 256, _⟩ (1 : Fin 2) * 64 + 64
      rw [(out_index ⟨(i 0).val / 256, _⟩).2]
      omega

/-- The kernel's run: the result array ends holding the layer of the arguments, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Run

end Cert.KernelIdeal.LayerValue

end
-- ==== Proof.RefLayer.lean ====
/-
  The reference computes the layer.

  It cuts the adjacency matrix into eight bands of 2048 rows, multiplies each band by the weight matrix, stacks
  the eight products, and adds the bias broadcast down the rows. Row r of the stack is row (r mod 2048) of
  product (r div 2048), whose band starts at row 2048 · (r div 2048): so it is the inner products of row r of the
  adjacency matrix with the columns of the weight matrix. The contraction is the same finite sum over all
  16384 columns, so the banding changes nothing.
-/
import proofs.«165007_g49873160241781_cont_8to1c4_356_22_alg».proof.Proof.Layer
import proofs.«165007_g49873160241781_cont_8to1c4_356_22_alg».proof.Proof.Gen.ReferenceIdeal.Read

noncomputable section

open scoped BigOperators

open Idealize.ShloMosaic Idealize.ShloMosaic.TcCoe Idealize.SL.Sem Idealize.ShloMosaic.ValueIdx

namespace Cert.ReferenceIdeal.Layer

open Cert.ReferenceIdeal Cert.ReferenceIdeal.Gen Cert.ReferenceIdeal.Read

/-- One band's product at (p, q): a band is the rows from `off` on, its operand indices are the contraction's
    (row p, column k) and (row k, column q), so the entry is the inner product of row `off + p` with column q. -/
theorem chunk_sum (x0 : FVec Ideal S16384x16384 .f32) (x1 : FVec Ideal S16384x64 .f32) (off : ℕ)
    (y : FVec Ideal S2048x16384 .f32)
    (hy : ∀ (i : S2048x16384.Idx) (i' : S16384x16384.Idx), (i' 0).val = off + (i 0).val → (i' 1).val = (i 1).val → y i = x0 i')
    (L : S2048x64.Idx → Fin 16384 → S2048x16384.Idx) (R : S2048x64.Idx → Fin 16384 → S16384x64.Idx)
    (hL0 : ∀ i k, ((L i k) 0).val = (i 0).val) (hL1 : ∀ i k, ((L i k) 1).val = k.val)
    (hR0 : ∀ i k, ((R i k) 0).val = k.val) (hR1 : ∀ i k, ((R i k) 1).val = (i 1).val)
    (p : Fin 2048) (q : Fin 64) (r : Fin 16384) (hr : r.val = off + p.val) :
    ∑ k : Fin 16384, y (L (ix2 p q) k) * x1 (R (ix2 p q) k) = ∑ k : Fin 16384, x0 (ix2 r k) * x1 (ix2 k q) := by
  refine Finset.sum_congr rfl fun k _ => ?_
  rw [hy (L (ix2 p q) k) (ix2 r k) (by rw [hL0]; exact hr) (by rw [hL1])]
  refine congrArg (x0 (ix2 r k) * ·) (congrArg x1 (funext fun a => Fin.ext ?_))
  match a with
  | ⟨0, _⟩ => exact hR0 _ _
  | ⟨1, _⟩ => exact hR1 _ _

/-- The eight band products, by band. -/
def pieces (x0 : FVec Ideal S16384x16384 .f32) (x1 : FVec Ideal S16384x64 .f32) : Fin 8 → (S2048x64.Idx → Ideal .f32)
  | ⟨0, _⟩ => val_main_v1 (F := Ideal) x0 x1
  | ⟨1, _⟩ => val_main_v3 (F := Ideal) x0 x1
  | ⟨2, _⟩ => val_main_v5 (F := Ideal) x0 x1
  | ⟨3, _⟩ => val_main_v7 (F := Ideal) x0 x1
  | ⟨4, _⟩ => val_main_v9 (F := Ideal) x0 x1
  | ⟨5, _⟩ => val_main_v11 (F := Ideal) x0 x1
  | ⟨6, _⟩ => val_main_v13 (F := Ideal) x0 x1
  | ⟨7, _⟩ => val_main_v15 (F := Ideal) x0 x1
  | ⟨_ + 8, h⟩ => absurd h (Nat.not_lt.2 (Nat.le_add_left _ _))

/-- A band read through its slice: the band's entry (p, k) is the matrix's entry (off + p, k), whichever way the
    two indices are spelled. -/
theorem band_read (x0 : FVec Ideal S16384x16384 .f32) (off : ℕ) (y : FVec Ideal S2048x16384 .f32)
    (ι : S2048x16384.Idx → S16384x16384.Idx) (hι0 : ∀ i, ((ι i) 0).val = off + (i 0).val)
    (hι1 : ∀ i, ((ι i) 1).val = (i 1).val) (hy : ∀ i, y i = x0 (ι i)) (i : S2048x16384.Idx) (i' : S16384x16384.Idx)
    (h0 : (i' 0).val = off + (i 0).val) (h1 : (i' 1).val = (i 1).val) : y i = x0 i' := by
  rw [hy i]
  refine congrArg x0 (funext fun a => Fin.ext ?_)
  match a with
  | ⟨0, _⟩ => exact (hι0 i).trans h0.symm
  | ⟨1, _⟩ => exact (hι1 i).trans h1.symm

/-- Band n's product at (p, q) is the inner product of row 2048 n + p with column q. -/
theorem piece_apply (x0 : FVec Ideal S16384x16384 .f32) (x1 : FVec Ideal S16384x64 .f32) (p : Fin 2048) (q : Fin 64)
    (r : Fin 16384) : ∀ (n : Fin 8), r.val = 2048 * n.val + p.val →
    pieces x0 x1 n (ix2 p q) = ∑ k : Fin 16384, x0 (ix2 r k) * x1 (ix2 k q)
  | ⟨0, _⟩, hr => by
    show val_main_v1 (F := Ideal) x0 x1 (ix2 p q) = _
    rw [val_main_v1_apply]
    exact chunk_sum x0 x1 0 _ (band_read x0 0 _ idx_main_v0 (fun _ => (Nat.zero_add _).symm) (fun _ => rfl) (val_main_v0_apply (F := Ideal) x0))
      lidx_main_v1 ridx_main_v1 (fun _ _ => rfl) (fun _ _ => rfl) (fun _ _ => rfl) (fun _ _ => rfl) p q r (by dsimp only at hr; omega)
  | ⟨1, _⟩, hr => by
    show val_main_v3 (F := Ideal) x0 x1 (ix2 p q) = _
    rw [val_main_v3_apply]
    exact chunk_sum x0 x1 2048 _ (band_read x0 2048 _ idx_main_v2 (fun _ => rfl) (fun _ => rfl) (val_main_v2_apply (F := Ideal) x0))
      lidx_main_v3 ridx_main_v3 (fun _ _ => rfl) (fun _ _ => rfl) (fun _ _ => rfl) (fun _ _ => rfl) p q r (by dsimp only at hr; omega)
  | ⟨2, _⟩, hr => by
    show val_main_v5 (F := Ideal) x0 x1 (ix2 p q) = _
    rw [val_main_v5_apply]
    exact chunk_sum x0 x1 4096 _ (band_read x0 4096 _ idx_main_v4 (fun _ => rfl) (fun _ => rfl) (val_main_v4_apply (F := Ideal) x0))
      lidx_main_v5 ridx_main_v5 (fun _ _ => rfl) (fun _ _ => rfl) (fun _ _ => rfl) (fun _ _ => rfl) p q r (by dsimp only at hr; omega)
  | ⟨3, _⟩, hr => by
    show val_main_v7 (F := Ideal) x0 x1 (ix2 p q) = _
    rw [val_main_v7_apply]
    exact chunk_sum x0 x1 6144 _ (band_read x0 6144 _ idx_main_v6 (fun _ => rfl) (fun _ => rfl) (val_main_v6_apply (F := Ideal) x0))
      lidx_main_v7 ridx_main_v7 (fun _ _ => rfl) (fun _ _ => rfl) (fun _ _ => rfl) (fun _ _ => rfl) p q r (by dsimp only at hr; omega)
  | ⟨4, _⟩, hr => by
    show val_main_v9 (F := Ideal) x0 x1 (ix2 p q) = _
    rw [val_main_v9_apply]
    exact chunk_sum x0 x1 8192 _ (band_read x0 8192 _ idx_main_v8 (fun _ => rfl) (fun _ => rfl) (val_main_v8_apply (F := Ideal) x0))
      lidx_main_v9 ridx_main_v9 (fun _ _ => rfl) (fun _ _ => rfl) (fun _ _ => rfl) (fun _ _ => rfl) p q r (by dsimp only at hr; omega)
  | ⟨5, _⟩, hr => by
    show val_main_v11 (F := Ideal) x0 x1 (ix2 p q) = _
    rw [val_main_v11_apply]
    exact chunk_sum x0 x1 10240 _ (band_read x0 10240 _ idx_main_v10 (fun _ => rfl) (fun _ => rfl) (val_main_v10_apply (F := Ideal) x0))
      lidx_main_v11 ridx_main_v11 (fun _ _ => rfl) (fun _ _ => rfl) (fun _ _ => rfl) (fun _ _ => rfl) p q r (by dsimp only at hr; omega)
  | ⟨6, _⟩, hr => by
    show val_main_v13 (F := Ideal) x0 x1 (ix2 p q) = _
    rw [val_main_v13_apply]
    exact chunk_sum x0 x1 12288 _ (band_read x0 12288 _ idx_main_v12 (fun _ => rfl) (fun _ => rfl) (val_main_v12_apply (F := Ideal) x0))
      lidx_main_v13 ridx_main_v13 (fun _ _ => rfl) (fun _ _ => rfl) (fun _ _ => rfl) (fun _ _ => rfl) p q r (by dsimp only at hr; omega)
  | ⟨7, _⟩, hr => by
    show val_main_v15 (F := Ideal) x0 x1 (ix2 p q) = _
    rw [val_main_v15_apply]
    exact chunk_sum x0 x1 14336 _ (band_read x0 14336 _ idx_main_v14 (fun _ => rfl) (fun _ => rfl) (val_main_v14_apply (F := Ideal) x0))
      lidx_main_v15 ridx_main_v15 (fun _ _ => rfl) (fun _ _ => rfl) (fun _ _ => rfl) (fun _ _ => rfl) p q r (by dsimp only at hr; omega)
  | ⟨_ + 8, h⟩, _ => absurd h (Nat.not_lt.2 (Nat.le_add_left _ _))

/-- The stacked products at (r, q): band r div 2048 at row r mod 2048. -/
theorem stack_apply (x0 : FVec Ideal S16384x16384 .f32) (x1 : FVec Ideal S16384x64 .f32) (r : Fin 16384) (q : Fin 64) :
    val_main_v16 (F := Ideal) x0 x1 (ix2 r q) = ∑ k : Fin 16384, x0 (ix2 r k) * x1 (ix2 k q) := by
  have hn : r.val / 2048 < 8 := by have := r.isLt; omega
  have hp : r.val % 2048 < 2048 := Nat.mod_lt _ (by decide)
  unfold val_main_v16
  refine (concatenate_ofFn_apply (t := S16384x64) (s₁ := S2048x64) (0 : Fin 2) (pieces x0 x1)
    concatenates_S2048x64_S2048x64_S2048x64_S2048x64_S2048x64_S2048x64_S2048x64_S2048x64_S16384x64_d0 rfl 2048 rfl
    (ix2 r q) ⟨r.val / 2048, hn⟩ rfl (ix2 ⟨r.val % 2048, hp⟩ q) rfl (fun b hb => ?_)).trans ?_
  · match b with
    | ⟨0, _⟩ => exact absurd rfl hb
    | ⟨1, _⟩ => rfl
  · exact piece_apply x0 x1 ⟨r.val % 2048, hp⟩ q r ⟨r.val / 2048, hn⟩ (by show r.val = 2048 * (r.val / 2048) + r.val % 2048; omega)

/-- The reference's result is the layer of its arguments. -/
theorem reference_eq (x0 : FVec Ideal S16384x16384 .f32) (x1 : FVec Ideal S16384x64 .f32) (x2 : FVec Ideal S64 .f32) :
    val_main_v19 (F := Ideal) x0 x1 x2 = Cert.Layer.affine x0 x1 x2 := by
  funext i
  obtain ⟨r, q, rfl⟩ : ∃ (r : Fin 16384) (q : Fin 64), i = ix2 r q := ⟨i 0, i 1, eq_ix2 i⟩
  rw [val_main_v19_apply, Cert.Layer.affine_apply, stack_apply, val_main_v18_apply, val_main_v17_apply]
  show _ + x2 _ = _ + x2 _
  refine congrArg (_ + ·) (congrArg x2 (funext fun a => ?_))
  match a with
  | ⟨0, _⟩ => rfl

end Cert.ReferenceIdeal.Layer

end
-- ==== Proof.lean ====
/-
  The layer `adj · W + b` — a 16384 × 16384 matrix times a 16384 × 64 matrix, plus a bias row — computed two ways.

  The kernel walks the rows of the adjacency matrix in 64 blocks of 256 rows. At the first block it stores a bf16
  copy of the weight matrix in a scratch buffer and keeps it; at every block it narrows the row block to bf16,
  multiplies it by the scratch copy on the matrix unit into a zero accumulator, adds the bias row, and writes the
  256 × 64 product block back to the same rows of the result. The reference cuts the adjacency matrix into eight
  bands of 2048 rows, multiplies each by the weight matrix, stacks the products and adds the bias.

  Over the extended reals narrowing is the identity and both products are the plain finite sum over the
  contraction index, so both programs leave, at row r and column j,

      (∑ k, adj (r, k) * W (k, j)) + b j,

  the same finite sum on both sides: neither the tiling of the rows nor the order of the terms enters, and no
  finiteness of the inputs is needed. The idealization rewrote no operation of the kernel, so the kernel's
  idealization is its own text read over the extended reals.

  The three programs run and leave their arguments unchanged: the kernels by the run of the row-block pipeline
  with the scratch carried from block to block, the reference by running its straight line of host operations.
-/
import proofs.«165007_g49873160241781_cont_8to1c4_356_22_alg».proof.Defs
import proofs.«165007_g49873160241781_cont_8to1c4_356_22_alg».proof.Proof.Gen.Kernel
import proofs.«165007_g49873160241781_cont_8to1c4_356_22_alg».proof.Proof.Gen.Kernel.Skeleton
import proofs.«165007_g49873160241781_cont_8to1c4_356_22_alg».proof.Proof.Gen.Kernel.Launch
import proofs.«165007_g49873160241781_cont_8to1c4_356_22_alg».proof.Proof.Gen.Kernel.Points
import proofs.«165007_g49873160241781_cont_8to1c4_356_22_alg».proof.Proof.Gen.Kernel.Frame
import proofs.«165007_g49873160241781_cont_8to1c4_356_22_alg».proof.Proof.Gen.KernelIdeal
import proofs.«165007_g49873160241781_cont_8to1c4_356_22_alg».proof.Proof.Gen.KernelIdeal.Skeleton
import proofs.«165007_g49873160241781_cont_8to1c4_356_22_alg».proof.Proof.Gen.KernelIdeal.Launch
import proofs.«165007_g49873160241781_cont_8to1c4_356_22_alg».proof.Proof.Gen.KernelIdeal.Points
import proofs.«165007_g49873160241781_cont_8to1c4_356_22_alg».proof.Proof.Gen.KernelIdeal.Frame
import proofs.«165007_g49873160241781_cont_8to1c4_356_22_alg».proof.Proof.Gen.ReferenceIdeal
import proofs.«165007_g49873160241781_cont_8to1c4_356_22_alg».proof.Proof.Gen.Pre_finite_inputs
import proofs.«165007_g49873160241781_cont_8to1c4_356_22_alg».proof.Proof.Gen.KernelIdeal.Value
import proofs.«165007_g49873160241781_cont_8to1c4_356_22_alg».proof.Proof.Gen.ReferenceIdeal.Run
import proofs.«165007_g49873160241781_cont_8to1c4_356_22_alg».proof.Proof.Gen.ReferenceIdeal.Read
import proofs.«165007_g49873160241781_cont_8to1c4_356_22_alg».proof.Proof.KernelLayer
import proofs.«165007_g49873160241781_cont_8to1c4_356_22_alg».proof.Proof.RefLayer
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From arguments that agree, both programs end with the layer of those arguments in their result arrays. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Layer.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
